-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S1x2048 : Shape := ⟨2, ![1, 2048]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩

abbrev nBuf : Space → Nat
  | .hbm => 23
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x4096, .bf16⟩
  | .hbm, ⟨13, _⟩ => ⟨S2048x4096, .bf16⟩
  | .hbm, ⟨14, _⟩ => ⟨S2048x4096, .bf16⟩
  | .hbm, ⟨15, _⟩ => ⟨S2048x4096, .bf16⟩
  | .hbm, ⟨16, _⟩ => ⟨S2048x4096, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S4096x2048, .f32⟩
  | .hbm, ⟨22, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S256x4096, .bf16⟩
  | .local _ .vmem, ⟨7, _⟩ => ⟨S256x4096, .bf16⟩
  | .local _ .vmem, ⟨8, _⟩ => ⟨S1x256, .f32⟩
  | .local _ .vmem, ⟨9, _⟩ => ⟨S1x256, .f32⟩
  | .local _ .vmem, ⟨10, _⟩ => ⟨S256x4096, .bf16⟩
  | .local _ .vmem, ⟨11, _⟩ => ⟨S256x4096, .bf16⟩
  | .local _ .vmem, ⟨12, _⟩ => ⟨S1x256, .f32⟩
  | .local _ .vmem, ⟨13, _⟩ => ⟨S1x256, .f32⟩
  | .local _ .vmem, ⟨14, _⟩ => ⟨S256x4096, .bf16⟩
  | .local _ .vmem, ⟨15, _⟩ => ⟨S256x4096, .bf16⟩
  | .local _ .vmem, ⟨16, _⟩ => ⟨S1x256, .f32⟩
  | .local _ .vmem, ⟨17, _⟩ => ⟨S1x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  concatenates_S4096x2048_S4096x2048_S4096x4096_d1 : Shape.Concatenates [S4096x2048, S4096x2048] S4096x4096 1
  bitsLt_bf16_f32 : FTy.bits .bf16 < FTy.bits .f32
  shapeCasts_S2048_S1x2048 : S2048.ShapeCasts S1x2048
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .bf16 = 32 ∨ (Rect.block (s := S2048x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x4096.size a
  hwx0_3 : ∀ i : grid0.Coords, EltTy.bits .bf16 = 32 ∨ (Rect.block (s := S2048x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S2048x4096.size a
  hwx0_5 : ∀ i : grid0.Coords, EltTy.bits .bf16 = 32 ∨ (Rect.block (s := S2048x4096) S256x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S2048x4096.size a
  hwx0_7 : ∀ i : grid0.Coords, EltTy.bits .bf16 = 32 ∨ (Rect.block (s := S2048x4096) S256x4096.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S4096x2048.size a
  hwx0_9 : ∀ i : grid0.Coords, EltTy.bits .f32 = 32 ∨ (Rect.block (s := S4096x2048) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x2048.size a
  hwx0_10 : ∀ i : grid0.Coords, EltTy.bits .f32 = 32 ∨ (Rect.block (s := S4096x2048) S512x256.size (cc0_transform_10 i) (hinb0_10 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S512x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S512x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S1x2048 : Shape := ⟨2, ![1, 2048]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.CellSpec.lean ====
/-
  One step of an LSTM cell over a batch, index by index, on the extended reals.

  The batch input `xh` is a [4096, 4096] array (the step's input and the previous hidden state side by side), each
  gate has a weight matrix [2048, 4096] stored row per output unit and a bias [2048]. The pre-activation of a gate
  at batch row p and unit q is the inner product of row p of `xh` with row q of the weights, plus the unit's bias.
  The forget, input and output gates pass it through the logistic function, the candidate through tanh; the new
  cell state is (f + i) · c (the previous cell state does not enter), and the new hidden state is o · tanh of it.

  Also here: the logistic function spelt as a quotient, 1 / (1 + e^(-x)) with the literal 1.0 written as its f32
  word, is the logistic function on every extended real, the infinities included: it is that quotient by definition.
-/
import Idealize.ShloMosaic.PureOps.Ideal
import Idealize.ShloMosaic.PureOps.IdealRules
import Idealize.ShloMosaic.Lib.ValueIdx

noncomputable section

namespace Cert.CellSpec

open Idealize.ShloMosaic Idealize.ShloMosaic.ValueIdx

/-- The batch input: 4096 rows of 4096 features. -/
abbrev SIn : Shape := ⟨2, ![4096, 4096]⟩
/-- A gate's weights: 2048 units, each a row of 4096 coefficients. -/
abbrev SW : Shape := ⟨2, ![2048, 4096]⟩
/-- A gate's bias: one entry per unit. -/
abbrev SB : Shape := ⟨1, ![2048]⟩
/-- A result: 4096 rows of 2048 units. -/
abbrev SOut : Shape := ⟨2, ![4096, 2048]⟩

/-- A gate's pre-activation at batch row `p` and unit `q`: row `p` of the input against row `q` of the weights,
    plus the unit's bias. -/
def gate (xh : FVec Ideal SIn .f32) (W : FVec Ideal SW .f32) (b : FVec Ideal SB .f32) (p : Fin 4096) (q : Fin 2048) : EReal :=
  (∑ k : Fin 4096, xh (ix2 p k) * W (ix2 q k)) + b (ix1 q)

/-- The new cell state: (forget gate + input gate) · candidate. -/
def cellState (xh : FVec Ideal SIn .f32) (Wf : FVec Ideal SW .f32) (bf : FVec Ideal SB .f32) (Wi : FVec Ideal SW .f32)
    (bi : FVec Ideal SB .f32) (Wc : FVec Ideal SW .f32) (bc : FVec Ideal SB .f32) : FVec Ideal SOut .f32 := fun i =>
  (Ideal.logistic (gate xh Wf bf (i 0) (i 1)) + Ideal.logistic (gate xh Wi bi (i 0) (i 1))) * Ideal.tanh (gate xh Wc bc (i 0) (i 1))

/-- The new hidden state: output gate · tanh of the new cell state. -/
def hidden (xh : FVec Ideal SIn .f32) (Wf : FVec Ideal SW .f32) (bf : FVec Ideal SB .f32) (Wi : FVec Ideal SW .f32)
    (bi : FVec Ideal SB .f32) (Wc : FVec Ideal SW .f32) (bc : FVec Ideal SB .f32) (Wo : FVec Ideal SW .f32)
    (bo : FVec Ideal SB .f32) : FVec Ideal SOut .f32 := fun i =>
  Ideal.logistic (gate xh Wo bo (i 0) (i 1)) * Ideal.tanh (cellState xh Wf bf Wi bi Wc bc i)

/-- The f32 word of 1.0 denotes the real 1. -/
theorem one_f32 : Ideal.ofBits .f32 0x3F800000#32 = 1 := IdealRules.sign_bit.ideal_onePat .f32

/-- The quotient 1 / (1 + e^(-x)), its two ones written as f32 words, is the logistic function at every extended
    real: the function is that quotient by definition, so the infinities need no separate case. -/
theorem quotient_eq_logistic (x : EReal) :
    Ideal.div (Ideal.ofBits .f32 0x3F800000#32) (Ideal.ofBits .f32 0x3F800000#32 + Ideal.exp (-x)) = Ideal.logistic x := by
  rw [one_f32]
  rfl

end Cert.CellSpec

end
-- ==== Proof.RefCell.lean ====
/-
  The reference's two results are the LSTM cell of `CellSpec`.

  The reference forms the batch input by joining its first two arguments side by side, transposes each weight
  matrix and contracts the input's columns against the transposed matrix's rows, adds the bias broadcast down the
  batch, and spells the logistic function as 1 / (1 + e^(-x)). Read at an index (p, q): the contraction is the sum
  over k of input (p, k) times weight (q, k) (the transpose undone), the broadcast bias is entry q, the quotient is
  the logistic function; so each gate's pre-activation is `CellSpec.gate`, and the two results are
  `CellSpec.hidden` and `CellSpec.cellState` of the joined input and the eight parameter arrays. The joined
  input is left as the join: nothing here looks inside it.
-/
import proofs.«156758_j22119081574758_1_alg».proof.Proof.Gen.ReferenceIdeal.Read
import proofs.«156758_j22119081574758_1_alg».proof.Proof.CellSpec

noncomputable section

namespace Cert.ReferenceIdeal.CellRead

open Cert.ReferenceIdeal Cert.ReferenceIdeal.Read Idealize.ShloMosaic Idealize.ShloMosaic.ValueIdx Cert.CellSpec

/-- A sum of products read through index maps that are, coordinate by coordinate, (p, k) on the left and (q, k) on
    the right, plus a bias read at q, is the gate's pre-activation at (p, q). -/
theorem gate_of_reads (xh : FVec Ideal SIn .f32) (W : FVec Ideal SW .f32) (b : FVec Ideal SB .f32) (i : SOut.Idx)
    (l : Fin 4096 → SIn.Idx) (r : Fin 4096 → SW.Idx) (d : SB.Idx)
    (hl : ∀ k, l k = ix2 (i 0) k) (hr : ∀ k, r k = ix2 (i 1) k) (hd : d = ix1 (i 1)) :
    FloatOps.addf (∑ k : Fin 4096, xh (l k) * W (r k)) (b d) = gate xh W b (i 0) (i 1) := by
  simp only [hl, hr, hd]
  rfl

variable (x0 x1 : FVec Ideal S4096x2048 .f32)

/-! ## Each gate's pre-activation -/

/-- The forget gate's pre-activation. -/
theorem pre_f (W : FVec Ideal S2048x4096 .f32) (b : FVec Ideal S2048 .f32) (i : S4096x2048.Idx) :
    val_main_v5 (F := Ideal) x0 x1 W b i = gate (val_main_v0 (F := Ideal) x0 x1) W b (i 0) (i 1) := by
  rw [val_main_v5_apply, val_main_v2_apply, val_main_v4_apply, val_main_v3_apply]
  simp only [val_main_v1_apply]
  exact gate_of_reads _ W b i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-- The input gate's pre-activation. -/
theorem pre_i (W : FVec Ideal S2048x4096 .f32) (b : FVec Ideal S2048 .f32) (i : S4096x2048.Idx) :
    val_main_v16 (F := Ideal) x0 x1 W b i = gate (val_main_v0 (F := Ideal) x0 x1) W b (i 0) (i 1) := by
  rw [val_main_v16_apply, val_main_v13_apply, val_main_v15_apply, val_main_v14_apply]
  simp only [val_main_v12_apply]
  exact gate_of_reads _ W b i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-- The candidate's pre-activation. -/
theorem pre_c (W : FVec Ideal S2048x4096 .f32) (b : FVec Ideal S2048 .f32) (i : S4096x2048.Idx) :
    val_main_v27 (F := Ideal) x0 x1 W b i = gate (val_main_v0 (F := Ideal) x0 x1) W b (i 0) (i 1) := by
  rw [val_main_v27_apply, val_main_v24_apply, val_main_v26_apply, val_main_v25_apply]
  simp only [val_main_v23_apply]
  exact gate_of_reads _ W b i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-- The output gate's pre-activation. -/
theorem pre_o (W : FVec Ideal S2048x4096 .f32) (b : FVec Ideal S2048 .f32) (i : S4096x2048.Idx) :
    val_main_v33 (F := Ideal) x0 x1 W b i = gate (val_main_v0 (F := Ideal) x0 x1) W b (i 0) (i 1) := by
  rw [val_main_v33_apply, val_main_v30_apply, val_main_v32_apply, val_main_v31_apply]
  simp only [val_main_v29_apply]
  exact gate_of_reads _ W b i _ _ _
    (fun k => funext fun a => Fin.ext (by match a with | ⟨0, _⟩ => rfl | ⟨1, _⟩ => rfl))
    (fun k => funext fun a => Fin.ext (by match a with | ⟨0, _⟩ => rfl | ⟨1, _⟩ => rfl))
    (funext fun a => Fin.ext (by match a with | ⟨0, _⟩ => rfl))

/-! ## The logistic gates: the quotient the reference spells is the logistic function -/

/-- The forget gate. -/
theorem gate_f (W : FVec Ideal S2048x4096 .f32) (b : FVec Ideal S2048 .f32) (i : S4096x2048.Idx) :
    val_main_v11 (F := Ideal) x0 x1 W b i = Ideal.logistic (gate (val_main_v0 (F := Ideal) x0 x1) W b (i 0) (i 1)) := by
  rw [val_main_v11_apply, val_main_v10_apply, val_main_cst_0_apply, val_main_v9_apply, val_main_v8_apply,
    val_main_cst_apply, val_main_v7_apply, val_main_v6_apply, pre_f]
  exact quotient_eq_logistic _

/-- The input gate. -/
theorem gate_i (W : FVec Ideal S2048x4096 .f32) (b : FVec Ideal S2048 .f32) (i : S4096x2048.Idx) :
    val_main_v22 (F := Ideal) x0 x1 W b i = Ideal.logistic (gate (val_main_v0 (F := Ideal) x0 x1) W b (i 0) (i 1)) := by
  rw [val_main_v22_apply, val_main_v21_apply, val_main_cst_2_apply, val_main_v20_apply, val_main_v19_apply,
    val_main_cst_1_apply, val_main_v18_apply, val_main_v17_apply, pre_i]
  exact quotient_eq_logistic _

/-- The output gate. -/
theorem gate_o (W : FVec Ideal S2048x4096 .f32) (b : FVec Ideal S2048 .f32) (i : S4096x2048.Idx) :
    val_main_v39 (F := Ideal) x0 x1 W b i = Ideal.logistic (gate (val_main_v0 (F := Ideal) x0 x1) W b (i 0) (i 1)) := by
  rw [val_main_v39_apply, val_main_v38_apply, val_main_cst_4_apply, val_main_v37_apply, val_main_v36_apply,
    val_main_cst_3_apply, val_main_v35_apply, val_main_v34_apply, pre_o]
  exact quotient_eq_logistic _

/-- The candidate. -/
theorem cand (W : FVec Ideal S2048x4096 .f32) (b : FVec Ideal S2048 .f32) (i : S4096x2048.Idx) :
    val_main_v28 (F := Ideal) x0 x1 W b i = Ideal.tanh (gate (val_main_v0 (F := Ideal) x0 x1) W b (i 0) (i 1)) := by
  rw [val_main_v28_apply, pre_c]
  rfl

/-! ## The two results -/

variable (x3 : FVec Ideal S2048x4096 .f32) (x4 : FVec Ideal S2048 .f32) (x5 : FVec Ideal S2048x4096 .f32) (x6 : FVec Ideal S2048 .f32)
  (x7 : FVec Ideal S2048x4096 .f32) (x8 : FVec Ideal S2048 .f32) (x9 : FVec Ideal S2048x4096 .f32) (x10 : FVec Ideal S2048 .f32)

/-- The reference's second result is the new cell state. -/
theorem state_eq : val_main_v41 (F := Ideal) x0 x1 x3 x4 x5 x6 x7 x8
    = cellState (val_main_v0 (F := Ideal) x0 x1) x3 x4 x5 x6 x7 x8 := by
  funext i
  rw [val_main_v41_apply, val_main_v40_apply, gate_f, gate_i, cand]
  rfl

/-- The reference's first result is the new hidden state. -/
theorem hidden_eq : val_main_v43 (F := Ideal) x0 x1 x3 x4 x5 x6 x7 x8 x9 x10
    = hidden (val_main_v0 (F := Ideal) x0 x1) x3 x4 x5 x6 x7 x8 x9 x10 := by
  funext i
  rw [val_main_v43_apply, val_main_v42_apply, gate_o, state_eq]
  rfl

end Cert.ReferenceIdeal.CellRead

end
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.BodyCell.lean ====
/-
  The kernel body on one tile, read at an entry.

  At a grid point the body holds 512 rows of the batch input (all 4096 features), 256 rows of each gate's weights
  and the matching 256 bias entries as a [1, 256] row. Each gate's pre-activation tile is the product of the input
  rows with the weight rows, both contracted on their feature axis, accumulated into zero, plus the bias row repeated
  down the 512 rows: at entry (a, q) the sum over k of input (a, k) times weight (q, k), plus bias (0, q). The first
  stored tile is (logistic f + logistic i) · tanh c, the second logistic o · tanh of the first.

  When the tile's rows are rows of whole arrays (input row a is array row p, weight row q is array row u, bias
  entry (0, q) is row-array entry (0, u)) the tile's gate at (a, q) is the whole arrays' gate at (p, u), and so the
  two stored tiles hold the cell state and the hidden state of `CellSpec` at (p, u).
-/
import proofs.«156758_j22119081574758_1_alg».proof.Proof.Gen.KernelIdeal.Skeleton
import proofs.«156758_j22119081574758_1_alg».proof.Proof.CellSpec
import proofs.«156758_j22119081574758_1_alg».proof.Proof.LibTransposedRhsDot
import Idealize.ShloMosaic.Lib.Pipeline.Value
import Idealize.ShloMosaic.Lib.ValueLayout
import Idealize.ShloMosaic.Lib.ValueIdx

noncomputable section

namespace Cert.KernelIdeal.CellBody

open Cert.KernelIdeal Cert.KernelIdeal.Gen Idealize.ShloMosaic Idealize.ShloMosaic.ValueIdx Cert.CellSpec

/-- A bias stored as a [1, 2048] row, as the [2048] array of its entries. -/
def rowOf (r : FVec Ideal S1x2048 .f32) : FVec Ideal SB .f32 := fun d => r (ix2 (0 : Fin 1) (d 0))

/-- A gate's pre-activation on a tile, at tile entry (a, q). -/
def tileGate (x : FVec Ideal S512x4096 .bf16) (w : FVec Ideal S256x4096 .bf16) (b : FVec Ideal S1x256 .f32)
    (a : Fin 512) (q : Fin 256) : EReal :=
  (∑ k : Fin 4096, x (ix2 a k) * w (ix2 q k)) + b (ix2 (0 : Fin 1) q)

/-- The body's pre-activation tile (matrix product into zero plus the broadcast bias row) is `tileGate` entry by entry. -/
theorem pre_eq (x : FVec Ideal S512x4096 .bf16) (w : FVec Ideal S256x4096 .bf16) (b : FVec Ideal S1x256 .f32) :
    addf (matmul dot_S512x4096_S256x4096_S512x256_1_1_0_0_n_n none (k0_pay2 (F := Ideal) x)
        (shapeCast S256x4096 w shapeCasts_S256x4096_S256x4096) (constant S512x256 .f32 0x00000000#32))
      (broadcastTo S512x256 (shapeCast S1x256 b shapeCasts_S1x256_S1x256) broadcasts_S1x256_S512x256)
      = fun j => tileGate x w b (j 0) (j 1) := by
  funext j
  obtain ⟨a, q, rfl⟩ : ∃ (a : Fin 512) (q : Fin 256), j = ix2 a q := ⟨j 0, j 1, eq_ix2 j⟩
  unfold k0_pay2 tileGate
  rw [shapeCast_self, shapeCast_self, shapeCast_self, addf_apply, broadcastTo_1b_ab_apply]
  refine congrArg (· + b (ix2 (0 : Fin 1) q)) ?_
  exact TransposedRhsDot.matmul_zero_apply _ rfl none x w (ix2 a q)

variable (x0 : FVec Ideal S512x4096 .bf16) (x1 : FVec Ideal S256x4096 .bf16) (x2 : FVec Ideal S1x256 .f32)
  (x3 : FVec Ideal S256x4096 .bf16) (x4 : FVec Ideal S1x256 .f32) (x5 : FVec Ideal S256x4096 .bf16) (x6 : FVec Ideal S1x256 .f32)
  (x7 : FVec Ideal S256x4096 .bf16) (x8 : FVec Ideal S1x256 .f32)

/-- The cell-state tile at entry (a, q). -/
theorem state_at (a : Fin 512) (q : Fin 256) :
    k0_pay4 (F := Ideal) x0 x1 x2 x3 x4 x5 x6 (ix2 a q)
      = (Ideal.logistic (tileGate x0 x1 x2 a q) + Ideal.logistic (tileGate x0 x3 x4 a q)) * Ideal.tanh (tileGate x0 x5 x6 a q) := by
  unfold k0_pay4
  simp only [pre_eq]
  rfl

/-- The output-gate tile at entry (a, q). -/
theorem out_at (a : Fin 512) (q : Fin 256) :
    k0_pay3 (F := Ideal) x0 x7 x8 (ix2 a q) = Ideal.logistic (tileGate x0 x7 x8 a q) := by
  unfold k0_pay3
  simp only [pre_eq]
  rfl

/-- The hidden-state tile at entry (a, q). -/
theorem hidden_at (a : Fin 512) (q : Fin 256) :
    k0_pay1 (F := Ideal) (k0_pay3 (F := Ideal) x0 x7 x8) (k0_pay4 (F := Ideal) x0 x1 x2 x3 x4 x5 x6) (ix2 a q)
      = Ideal.logistic (tileGate x0 x7 x8 a q)
        * Ideal.tanh ((Ideal.logistic (tileGate x0 x1 x2 a q) + Ideal.logistic (tileGate x0 x3 x4 a q)) * Ideal.tanh (tileGate x0 x5 x6 a q)) := by
  show k0_pay3 (F := Ideal) x0 x7 x8 (ix2 a q) * Ideal.tanh (k0_pay4 (F := Ideal) x0 x1 x2 x3 x4 x5 x6 (ix2 a q)) = _
  rw [out_at, state_at]

/-! ## From a tile to the whole arrays -/

/-- Tile rows that are rows of whole arrays give the whole arrays' gate. -/
theorem tileGate_eq (x : FVec Ideal S512x4096 .bf16) (w : FVec Ideal S256x4096 .bf16) (b : FVec Ideal S1x256 .f32)
    (X : FVec Ideal SIn .f32) (W : FVec Ideal SW .f32) (B : FVec Ideal S1x2048 .f32)
    (a : Fin 512) (q : Fin 256) (p : Fin 4096) (u : Fin 2048)
    (hx : ∀ k : Fin 4096, x (ix2 a k) = X (ix2 p k)) (hw : ∀ k : Fin 4096, w (ix2 q k) = W (ix2 u k))
    (hb : b (ix2 (0 : Fin 1) q) = B (ix2 (0 : Fin 1) u)) :
    tileGate x w b a q = gate X W (rowOf B) p u := by
  unfold tileGate gate rowOf
  simp only [hx, hw, hb]

end Cert.KernelIdeal.CellBody

end
-- ==== Proof.Tiles.lean ====
/-
  From tiles to arrays: what the kernel's two result arrays hold after its run.

  The grid has 8 × 8 points. At a point the two output windows sit at the same block (I, J): rows 512·I … of 4096,
  columns 256·J … of 2048. The input window holds rows 512·I … of the batch input (all columns), each weight window
  rows 256·J … of its matrix, each bias window entries 256·J … of its row array. So entry (a, q) of the tile the
  body stores is the LSTM cell of `CellSpec` at array index (512·I + a, 256·J + q), over the arrays as the region
  finds them: what a point writes back is its block of ONE whole-array function. The 64 blocks cover the result
  arrays, hence each result array is that function.
-/
import proofs.«156758_j22119081574758_1_alg».proof.Proof.Gen.KernelIdeal.Value
import proofs.«156758_j22119081574758_1_alg».proof.Proof.BodyCell
import Idealize.ShloMosaic.Lib.Pipeline.Value
import Idealize.ShloMosaic.Lib.Tactic

set_option maxRecDepth 16384

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.ValueIdx Cert.CellSpec Cert.KernelIdeal.CellBody
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-! ## The index maps over the grid -/

/-- The input window moves with the output's row block and always sits at column block 0. -/
theorem idx_w0 : ∀ t : Fin cfg0.N, win0_0.index t (0 : Fin 2) = win0_10.index t (0 : Fin 2) ∧ win0_0.index t (1 : Fin 2) = 0 :=
  (by decide +kernel : ∀ t : Fin grid0.N, _)
/-- Each weight window's row block is the output's column block. -/
theorem idx_w1 : ∀ t : Fin cfg0.N, win0_1.index t (0 : Fin 2) = win0_10.index t (1 : Fin 2) ∧ win0_1.index t (1 : Fin 2) = 0 :=
  (by decide +kernel : ∀ t : Fin grid0.N, _)
theorem idx_w3 : ∀ t : Fin cfg0.N, win0_3.index t (0 : Fin 2) = win0_10.index t (1 : Fin 2) ∧ win0_3.index t (1 : Fin 2) = 0 :=
  (by decide +kernel : ∀ t : Fin grid0.N, _)
theorem idx_w5 : ∀ t : Fin cfg0.N, win0_5.index t (0 : Fin 2) = win0_10.index t (1 : Fin 2) ∧ win0_5.index t (1 : Fin 2) = 0 :=
  (by decide +kernel : ∀ t : Fin grid0.N, _)
theorem idx_w7 : ∀ t : Fin cfg0.N, win0_7.index t (0 : Fin 2) = win0_10.index t (1 : Fin 2) ∧ win0_7.index t (1 : Fin 2) = 0 :=
  (by decide +kernel : ∀ t : Fin grid0.N, _)
/-- Each bias window's column block is the output's column block. -/
theorem idx_w2 : ∀ t : Fin cfg0.N, win0_2.index t (0 : Fin 2) = 0 ∧ win0_2.index t (1 : Fin 2) = win0_10.index t (1 : Fin 2) :=
  (by decide +kernel : ∀ t : Fin grid0.N, _)
theorem idx_w4 : ∀ t : Fin cfg0.N, win0_4.index t (0 : Fin 2) = 0 ∧ win0_4.index t (1 : Fin 2) = win0_10.index t (1 : Fin 2) :=
  (by decide +kernel : ∀ t : Fin grid0.N, _)
theorem idx_w6 : ∀ t : Fin cfg0.N, win0_6.index t (0 : Fin 2) = 0 ∧ win0_6.index t (1 : Fin 2) = win0_10.index t (1 : Fin 2) :=
  (by decide +kernel : ∀ t : Fin grid0.N, _)
theorem idx_w8 : ∀ t : Fin cfg0.N, win0_8.index t (0 : Fin 2) = 0 ∧ win0_8.index t (1 : Fin 2) = win0_10.index t (1 : Fin 2) :=
  (by decide +kernel : ∀ t : Fin grid0.N, _)
/-- The two output windows sit at the same block. -/
theorem idx_w9 : ∀ t : Fin cfg0.N, win0_9.index t (0 : Fin 2) = win0_10.index t (0 : Fin 2) ∧ win0_9.index t (1 : Fin 2) = win0_10.index t (1 : Fin 2) :=
  (by decide +kernel : ∀ t : Fin grid0.N, _)
/-- The output's block indices stay inside the 8 × 8 blocks of the result. -/
theorem idx_le : ∀ t : Fin cfg0.N, win0_10.index t (0 : Fin 2) ≤ 7 ∧ win0_10.index t (1 : Fin 2) ≤ 7 :=
  (by decide +kernel : ∀ t : Fin grid0.N, _)
/-- Every one of the 8 × 8 blocks is some point's. -/
theorem idx_onto : ∀ (q0 : Fin 8) (q1 : Fin 8), ∃ t : Fin cfg0.N, win0_10.index t = ![q0.val, q1.val] :=
  (by decide +kernel : ∀ (q0 : Fin 8) (q1 : Fin 8), ∃ t : Fin grid0.N, win0_10.index t = ![q0.val, q1.val])

/-! ## Each input window's block, read off its array -/

/-- Window 0 (the batch input): tile row `a` is array row (row block) · 512 + a, all 4096 columns. -/
theorem read0 (c : Dev nD) (t : Fin cfg0.N) (a : Fin 512) (k : Fin 4096) (p : Fin 4096)
    (hp : p.val = win0_10.index t (0 : Fin 2) * 512 + a.val) :
    (iblk m c 0 t : FVec Ideal S512x4096 .bf16) (ix2 a k) = (V m c main_v1 : FVec Ideal SIn .f32) (ix2 p k) := by
  obtain ⟨e0, e1⟩ := idx_w0 t
  show V m c main_v1 (((cfg0.win 0).blk t).view.emb (ix2 a k)) = V m c main_v1 (ix2 p k)
  refine congrArg (V m c main_v1) (funext fun ax => Fin.ext ?_)
  match ax with
  | ⟨0, _⟩ => show win0_0.index t (0 : Fin 2) * 512 + 1 * a.val = p.val; omega
  | ⟨1, _⟩ => show win0_0.index t (1 : Fin 2) * 4096 + 1 * k.val = k.val; omega

/-- Window 1 (the forget gate's weights): tile row `q` is array row (column block) · 256 + q, all 4096 columns. -/
theorem read1 (c : Dev nD) (t : Fin cfg0.N) (q : Fin 256) (k : Fin 4096) (u : Fin 2048)
    (hu : u.val = win0_10.index t (1 : Fin 2) * 256 + q.val) :
    (iblk m c 1 t : FVec Ideal S256x4096 .bf16) (ix2 q k) = (V m c main_v2 : FVec Ideal SW .f32) (ix2 u k) := by
  obtain ⟨e0, e1⟩ := idx_w1 t
  show V m c main_v2 (((cfg0.win 1).blk t).view.emb (ix2 q k)) = V m c main_v2 (ix2 u k)
  refine congrArg (V m c main_v2) (funext fun ax => Fin.ext ?_)
  match ax with
  | ⟨0, _⟩ => show win0_1.index t (0 : Fin 2) * 256 + 1 * q.val = u.val; omega
  | ⟨1, _⟩ => show win0_1.index t (1 : Fin 2) * 4096 + 1 * k.val = k.val; omega

/-- Window 2 (the forget gate's bias): the tile's one row, entry `q`, is the row array's entry (column block) · 256 + q. -/
theorem read2 (c : Dev nD) (t : Fin cfg0.N) (q : Fin 256) (u : Fin 2048)
    (hu : u.val = win0_10.index t (1 : Fin 2) * 256 + q.val) :
    (iblk m c 2 t : FVec Ideal S1x256 .f32) (ix2 (0 : Fin 1) q) = (V m c main_v6 : FVec Ideal S1x2048 .f32) (ix2 (0 : Fin 1) u) := by
  obtain ⟨e0, e1⟩ := idx_w2 t
  show V m c main_v6 (((cfg0.win 2).blk t).view.emb (ix2 (0 : Fin 1) q)) = V m c main_v6 (ix2 (0 : Fin 1) u)
  refine congrArg (V m c main_v6) (funext fun ax => Fin.ext ?_)
  match ax with
  | ⟨0, _⟩ => show win0_2.index t (0 : Fin 2) * 1 + 1 * 0 = 0; omega
  | ⟨1, _⟩ => show win0_2.index t (1 : Fin 2) * 256 + 1 * q.val = u.val; omega

/-- Window 3 (the input gate's weights): tile row `q` is array row (column block) · 256 + q, all 4096 columns. -/
theorem read3 (c : Dev nD) (t : Fin cfg0.N) (q : Fin 256) (k : Fin 4096) (u : Fin 2048)
    (hu : u.val = win0_10.index t (1 : Fin 2) * 256 + q.val) :
    (iblk m c 3 t : FVec Ideal S256x4096 .bf16) (ix2 q k) = (V m c main_v3 : FVec Ideal SW .f32) (ix2 u k) := by
  obtain ⟨e0, e1⟩ := idx_w3 t
  show V m c main_v3 (((cfg0.win 3).blk t).view.emb (ix2 q k)) = V m c main_v3 (ix2 u k)
  refine congrArg (V m c main_v3) (funext fun ax => Fin.ext ?_)
  match ax with
  | ⟨0, _⟩ => show win0_3.index t (0 : Fin 2) * 256 + 1 * q.val = u.val; omega
  | ⟨1, _⟩ => show win0_3.index t (1 : Fin 2) * 4096 + 1 * k.val = k.val; omega

/-- Window 4 (the input gate's bias): the tile's one row, entry `q`, is the row array's entry (column block) · 256 + q. -/
theorem read4 (c : Dev nD) (t : Fin cfg0.N) (q : Fin 256) (u : Fin 2048)
    (hu : u.val = win0_10.index t (1 : Fin 2) * 256 + q.val) :
    (iblk m c 4 t : FVec Ideal S1x256 .f32) (ix2 (0 : Fin 1) q) = (V m c main_v7 : FVec Ideal S1x2048 .f32) (ix2 (0 : Fin 1) u) := by
  obtain ⟨e0, e1⟩ := idx_w4 t
  show V m c main_v7 (((cfg0.win 4).blk t).view.emb (ix2 (0 : Fin 1) q)) = V m c main_v7 (ix2 (0 : Fin 1) u)
  refine congrArg (V m c main_v7) (funext fun ax => Fin.ext ?_)
  match ax with
  | ⟨0, _⟩ => show win0_4.index t (0 : Fin 2) * 1 + 1 * 0 = 0; omega
  | ⟨1, _⟩ => show win0_4.index t (1 : Fin 2) * 256 + 1 * q.val = u.val; omega

/-- Window 5 (the candidate's weights): tile row `q` is array row (column block) · 256 + q, all 4096 columns. -/
theorem read5 (c : Dev nD) (t : Fin cfg0.N) (q : Fin 256) (k : Fin 4096) (u : Fin 2048)
    (hu : u.val = win0_10.index t (1 : Fin 2) * 256 + q.val) :
    (iblk m c 5 t : FVec Ideal S256x4096 .bf16) (ix2 q k) = (V m c main_v4 : FVec Ideal SW .f32) (ix2 u k) := by
  obtain ⟨e0, e1⟩ := idx_w5 t
  show V m c main_v4 (((cfg0.win 5).blk t).view.emb (ix2 q k)) = V m c main_v4 (ix2 u k)
  refine congrArg (V m c main_v4) (funext fun ax => Fin.ext ?_)
  match ax with
  | ⟨0, _⟩ => show win0_5.index t (0 : Fin 2) * 256 + 1 * q.val = u.val; omega
  | ⟨1, _⟩ => show win0_5.index t (1 : Fin 2) * 4096 + 1 * k.val = k.val; omega

/-- Window 6 (the candidate's bias): the tile's one row, entry `q`, is the row array's entry (column block) · 256 + q. -/
theorem read6 (c : Dev nD) (t : Fin cfg0.N) (q : Fin 256) (u : Fin 2048)
    (hu : u.val = win0_10.index t (1 : Fin 2) * 256 + q.val) :
    (iblk m c 6 t : FVec Ideal S1x256 .f32) (ix2 (0 : Fin 1) q) = (V m c main_v8 : FVec Ideal S1x2048 .f32) (ix2 (0 : Fin 1) u) := by
  obtain ⟨e0, e1⟩ := idx_w6 t
  show V m c main_v8 (((cfg0.win 6).blk t).view.emb (ix2 (0 : Fin 1) q)) = V m c main_v8 (ix2 (0 : Fin 1) u)
  refine congrArg (V m c main_v8) (funext fun ax => Fin.ext ?_)
  match ax with
  | ⟨0, _⟩ => show win0_6.index t (0 : Fin 2) * 1 + 1 * 0 = 0; omega
  | ⟨1, _⟩ => show win0_6.index t (1 : Fin 2) * 256 + 1 * q.val = u.val; omega

/-- Window 7 (the output gate's weights): tile row `q` is array row (column block) · 256 + q, all 4096 columns. -/
theorem read7 (c : Dev nD) (t : Fin cfg0.N) (q : Fin 256) (k : Fin 4096) (u : Fin 2048)
    (hu : u.val = win0_10.index t (1 : Fin 2) * 256 + q.val) :
    (iblk m c 7 t : FVec Ideal S256x4096 .bf16) (ix2 q k) = (V m c main_v5 : FVec Ideal SW .f32) (ix2 u k) := by
  obtain ⟨e0, e1⟩ := idx_w7 t
  show V m c main_v5 (((cfg0.win 7).blk t).view.emb (ix2 q k)) = V m c main_v5 (ix2 u k)
  refine congrArg (V m c main_v5) (funext fun ax => Fin.ext ?_)
  match ax with
  | ⟨0, _⟩ => show win0_7.index t (0 : Fin 2) * 256 + 1 * q.val = u.val; omega
  | ⟨1, _⟩ => show win0_7.index t (1 : Fin 2) * 4096 + 1 * k.val = k.val; omega

/-- Window 8 (the output gate's bias): the tile's one row, entry `q`, is the row array's entry (column block) · 256 + q. -/
theorem read8 (c : Dev nD) (t : Fin cfg0.N) (q : Fin 256) (u : Fin 2048)
    (hu : u.val = win0_10.index t (1 : Fin 2) * 256 + q.val) :
    (iblk m c 8 t : FVec Ideal S1x256 .f32) (ix2 (0 : Fin 1) q) = (V m c main_v9 : FVec Ideal S1x2048 .f32) (ix2 (0 : Fin 1) u) := by
  obtain ⟨e0, e1⟩ := idx_w8 t
  show V m c main_v9 (((cfg0.win 8).blk t).view.emb (ix2 (0 : Fin 1) q)) = V m c main_v9 (ix2 (0 : Fin 1) u)
  refine congrArg (V m c main_v9) (funext fun ax => Fin.ext ?_)
  match ax with
  | ⟨0, _⟩ => show win0_8.index t (0 : Fin 2) * 1 + 1 * 0 = 0; omega
  | ⟨1, _⟩ => show win0_8.index t (1 : Fin 2) * 256 + 1 * q.val = u.val; omega

/-! ## A stored tile is the cell at the array index it lands on -/

section tile
variable (x0 : FVec Ideal S512x4096 .bf16) (x1 : FVec Ideal S256x4096 .bf16) (x2 : FVec Ideal S1x256 .f32)
  (x3 : FVec Ideal S256x4096 .bf16) (x4 : FVec Ideal S1x256 .f32) (x5 : FVec Ideal S256x4096 .bf16) (x6 : FVec Ideal S1x256 .f32)
  (x7 : FVec Ideal S256x4096 .bf16) (x8 : FVec Ideal S1x256 .f32)
  (X : FVec Ideal SIn .f32) (Wf : FVec Ideal SW .f32) (Bf : FVec Ideal S1x2048 .f32) (Wi : FVec Ideal SW .f32) (Bi : FVec Ideal S1x2048 .f32)
  (Wc : FVec Ideal SW .f32) (Bc : FVec Ideal S1x2048 .f32) (Wo : FVec Ideal SW .f32) (Bo : FVec Ideal S1x2048 .f32)
  (a : Fin 512) (q : Fin 256) (p : Fin 4096) (u : Fin 2048)

/-- The cell-state tile, its rows rows of the whole arrays, holds the cell state at (p, u). -/
theorem state_tile (hx : ∀ k : Fin 4096, x0 (ix2 a k) = X (ix2 p k))
    (hf : ∀ k : Fin 4096, x1 (ix2 q k) = Wf (ix2 u k)) (hbf : x2 (ix2 (0 : Fin 1) q) = Bf (ix2 (0 : Fin 1) u))
    (hi : ∀ k : Fin 4096, x3 (ix2 q k) = Wi (ix2 u k)) (hbi : x4 (ix2 (0 : Fin 1) q) = Bi (ix2 (0 : Fin 1) u))
    (hc : ∀ k : Fin 4096, x5 (ix2 q k) = Wc (ix2 u k)) (hbc : x6 (ix2 (0 : Fin 1) q) = Bc (ix2 (0 : Fin 1) u)) :
    k0_pay4 (F := Ideal) x0 x1 x2 x3 x4 x5 x6 (ix2 a q) = cellState X Wf (rowOf Bf) Wi (rowOf Bi) Wc (rowOf Bc) (ix2 p u) := by
  rw [state_at, tileGate_eq x0 x1 x2 X Wf Bf a q p u hx hf hbf, tileGate_eq x0 x3 x4 X Wi Bi a q p u hx hi hbi,
    tileGate_eq x0 x5 x6 X Wc Bc a q p u hx hc hbc]
  rfl

/-- The hidden-state tile, its rows rows of the whole arrays, holds the hidden state at (p, u). -/
theorem hidden_tile (hx : ∀ k : Fin 4096, x0 (ix2 a k) = X (ix2 p k))
    (hf : ∀ k : Fin 4096, x1 (ix2 q k) = Wf (ix2 u k)) (hbf : x2 (ix2 (0 : Fin 1) q) = Bf (ix2 (0 : Fin 1) u))
    (hi : ∀ k : Fin 4096, x3 (ix2 q k) = Wi (ix2 u k)) (hbi : x4 (ix2 (0 : Fin 1) q) = Bi (ix2 (0 : Fin 1) u))
    (hc : ∀ k : Fin 4096, x5 (ix2 q k) = Wc (ix2 u k)) (hbc : x6 (ix2 (0 : Fin 1) q) = Bc (ix2 (0 : Fin 1) u))
    (ho : ∀ k : Fin 4096, x7 (ix2 q k) = Wo (ix2 u k)) (hbo : x8 (ix2 (0 : Fin 1) q) = Bo (ix2 (0 : Fin 1) u)) :
    k0_pay1 (F := Ideal) (k0_pay3 (F := Ideal) x0 x7 x8) (k0_pay4 (F := Ideal) x0 x1 x2 x3 x4 x5 x6) (ix2 a q)
      = hidden X Wf (rowOf Bf) Wi (rowOf Bi) Wc (rowOf Bc) Wo (rowOf Bo) (ix2 p u) := by
  rw [hidden_at, tileGate_eq x0 x1 x2 X Wf Bf a q p u hx hf hbf, tileGate_eq x0 x3 x4 X Wi Bi a q p u hx hi hbi,
    tileGate_eq x0 x5 x6 X Wc Bc a q p u hx hc hbc, tileGate_eq x0 x7 x8 X Wo Bo a q p u hx ho hbo]
  rfl

end tile

/-! ## The two whole-array functions, over the arrays as the region finds them -/

/-- The cell state of the arrays the region finds: the joined input, the four weight matrices, the bias rows. -/
abbrev stateArr (c : Dev nD) : FVec Ideal SOut .f32 :=
  cellState (V m c main_v1) (V m c main_v2) (rowOf (V m c main_v6)) (V m c main_v3) (rowOf (V m c main_v7)) (V m c main_v4) (rowOf (V m c main_v8))

/-- The hidden state of the same arrays. -/
abbrev hiddenArr (c : Dev nD) : FVec Ideal SOut .f32 :=
  hidden (V m c main_v1) (V m c main_v2) (rowOf (V m c main_v6)) (V m c main_v3) (rowOf (V m c main_v7)) (V m c main_v4) (rowOf (V m c main_v8))
    (V m c main_v5) (rowOf (V m c main_v9))

/-! ## The output windows' blocks -/

/-- An entry (a, q) of output window 10's block at point `t` sits at array index (row block · 512 + a, column block · 256 + q). -/
theorem state_entry_at (t : Fin cfg0.N) (a : Fin 512) (q : Fin 256) (p : Fin 4096) (u : Fin 2048)
    (hp : p.val = win0_10.index t (0 : Fin 2) * 512 + a.val) (hu : u.val = win0_10.index t (1 : Fin 2) * 256 + q.val) :
    ((cfg0.win 10).blk t).view.emb (ix2 a q) = ix2 p u := by
  obtain ⟨e0, e1⟩ := idx_w9 t
  refine funext fun ax => Fin.ext ?_
  match ax with
  | ⟨0, _⟩ => show win0_10.index t (0 : Fin 2) * 512 + 1 * a.val = p.val; omega
  | ⟨1, _⟩ => show win0_10.index t (1 : Fin 2) * 256 + 1 * q.val = u.val; omega

/-- An index of the result is in point `t`'s block of window 10 iff each coordinate is in the block's range. -/
theorem mem_state_block (t : Fin cfg0.N) (i : S4096x2048.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v10_1).slice (win0_10.rect t)).set ↔ _
  rw [View.set_slice_whole, Rect.mem_set_unit]
  exact Iff.rfl

/-- The 64 blocks of window 10 cover the result: index (r, s) is in the block (r / 512, s / 256). -/
theorem state_blocks_cover (i : S4096x2048.Idx) : ∃ t : Fin cfg0.N, (cfg0.win 10).flush t = true ∧ i ∈ ((cfg0.win 10).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_10.index t (0 : Fin 2) = (i 0).val / 512 := congrFun ht 0
  have q1 : win0_10.index t (1 : Fin 2) = (i 1).val / 256 := congrFun ht 1
  obtain ⟨e0, e1⟩ := idx_w9 t
  refine ⟨t, flush0_10 t, ?_⟩
  rw [mem_state_block]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 256 ≤ (i 1).val ∧ (i 1).val < win0_10.index t (1 : Fin 2) * 256 + 256; omega

/-- An entry (a, q) of output window 9's block at point `t` sits at array index (row block · 512 + a, column block · 256 + q). -/
theorem hidden_entry_at (t : Fin cfg0.N) (a : Fin 512) (q : Fin 256) (p : Fin 4096) (u : Fin 2048)
    (hp : p.val = win0_10.index t (0 : Fin 2) * 512 + a.val) (hu : u.val = win0_10.index t (1 : Fin 2) * 256 + q.val) :
    ((cfg0.win 9).blk t).view.emb (ix2 a q) = ix2 p u := by
  obtain ⟨e0, e1⟩ := idx_w9 t
  refine funext fun ax => Fin.ext ?_
  match ax with
  | ⟨0, _⟩ => show win0_9.index t (0 : Fin 2) * 512 + 1 * a.val = p.val; omega
  | ⟨1, _⟩ => show win0_9.index t (1 : Fin 2) * 256 + 1 * q.val = u.val; omega

/-- An index of the result is in point `t`'s block of window 9 iff each coordinate is in the block's range. -/
theorem mem_hidden_block (t : Fin cfg0.N) (i : S4096x2048.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v10_0).slice (win0_9.rect t)).set ↔ _
  rw [View.set_slice_whole, Rect.mem_set_unit]
  exact Iff.rfl

/-- The 64 blocks of window 9 cover the result: index (r, s) is in the block (r / 512, s / 256). -/
theorem hidden_blocks_cover (i : S4096x2048.Idx) : ∃ t : Fin cfg0.N, (cfg0.win 9).flush t = true ∧ i ∈ ((cfg0.win 9).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_10.index t (0 : Fin 2) = (i 0).val / 512 := congrFun ht 0
  have q1 : win0_10.index t (1 : Fin 2) = (i 1).val / 256 := congrFun ht 1
  obtain ⟨e0, e1⟩ := idx_w9 t
  refine ⟨t, flush0_9 t, ?_⟩
  rw [mem_hidden_block]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 256 ≤ (i 1).val ∧ (i 1).val < win0_9.index t (1 : Fin 2) * 256 + 256; omega

/-! ## What a point writes back -/

/-- Point `t` writes back, to the cell-state array, its block of `stateArr`. -/
theorem state_block_written (c : Dev nD) (t : Fin cfg0.N) :
    (dats m 0 c).flushed 10 t = ((cfg0.win 10).blk t).view.read (Elt Ideal) (stateArr m c) := by
  rw [Value.flushed10]
  unfold out0_10
  rw [View.canon_unit_zero offsets_zero]
  simp only [View.ld_unit_zero (S := S512x4096) offsets_zero, View.ld_unit_zero (S := S256x4096) offsets_zero, View.ld_unit_zero (S := S1x256) offsets_zero]
  funext j
  obtain ⟨a, q, rfl⟩ : ∃ (a : Fin 512) (q : Fin 256), j = ix2 a q := ⟨j 0, j 1, eq_ix2 j⟩
  obtain ⟨hI, hJ⟩ := idx_le t
  have hp : win0_10.index t (0 : Fin 2) * 512 + a.val < 4096 := by have := a.isLt; omega
  have hu : win0_10.index t (1 : Fin 2) * 256 + q.val < 2048 := by have := q.isLt; omega
  show k0_pay4 (F := Ideal) (iblk m c 0 t) (iblk m c 1 t) (iblk m c 2 t) (iblk m c 3 t) (iblk m c 4 t) (iblk m c 5 t) (iblk m c 6 t) (ix2 a q)
      = stateArr m c (((cfg0.win 10).blk t).view.emb (ix2 a q))
  rw [state_entry_at t a q ⟨_, hp⟩ ⟨_, hu⟩ rfl rfl]
  exact state_tile (iblk m c 0 t) (iblk m c 1 t) (iblk m c 2 t) (iblk m c 3 t) (iblk m c 4 t) (iblk m c 5 t) (iblk m c 6 t)
    (V m c main_v1) (V m c main_v2) (V m c main_v6) (V m c main_v3) (V m c main_v7) (V m c main_v4) (V m c main_v8) a q ⟨_, hp⟩ ⟨_, hu⟩
    (fun k => read0 m c t a k ⟨_, hp⟩ rfl)
    (fun k => read1 m c t q k ⟨_, hu⟩ rfl) (read2 m c t q ⟨_, hu⟩ rfl)
    (fun k => read3 m c t q k ⟨_, hu⟩ rfl) (read4 m c t q ⟨_, hu⟩ rfl)
    (fun k => read5 m c t q k ⟨_, hu⟩ rfl) (read6 m c t q ⟨_, hu⟩ rfl)

/-- Point `t` writes back, to the hidden-state array, its block of `hiddenArr`. -/
theorem hidden_block_written (c : Dev nD) (t : Fin cfg0.N) :
    (dats m 0 c).flushed 9 t = ((cfg0.win 9).blk t).view.read (Elt Ideal) (hiddenArr m c) := by
  rw [Value.flushed9]
  unfold out0_9
  rw [View.canon_unit_zero offsets_zero]
  simp only [View.ld_unit_zero (S := S512x4096) offsets_zero, View.ld_unit_zero (S := S256x4096) offsets_zero, View.ld_unit_zero (S := S1x256) offsets_zero]
  funext j
  obtain ⟨a, q, rfl⟩ : ∃ (a : Fin 512) (q : Fin 256), j = ix2 a q := ⟨j 0, j 1, eq_ix2 j⟩
  obtain ⟨hI, hJ⟩ := idx_le t
  have hp : win0_10.index t (0 : Fin 2) * 512 + a.val < 4096 := by have := a.isLt; omega
  have hu : win0_10.index t (1 : Fin 2) * 256 + q.val < 2048 := by have := q.isLt; omega
  show k0_pay1 (F := Ideal) (k0_pay3 (F := Ideal) (iblk m c 0 t) (iblk m c 7 t) (iblk m c 8 t)) (k0_pay4 (F := Ideal) (iblk m c 0 t) (iblk m c 1 t) (iblk m c 2 t) (iblk m c 3 t) (iblk m c 4 t) (iblk m c 5 t) (iblk m c 6 t)) (ix2 a q)
      = hiddenArr m c (((cfg0.win 9).blk t).view.emb (ix2 a q))
  rw [hidden_entry_at t a q ⟨_, hp⟩ ⟨_, hu⟩ rfl rfl]
  exact hidden_tile (iblk m c 0 t) (iblk m c 1 t) (iblk m c 2 t) (iblk m c 3 t) (iblk m c 4 t) (iblk m c 5 t) (iblk m c 6 t) (iblk m c 7 t) (iblk m c 8 t)
    (V m c main_v1) (V m c main_v2) (V m c main_v6) (V m c main_v3) (V m c main_v7) (V m c main_v4) (V m c main_v8) (V m c main_v5) (V m c main_v9) a q ⟨_, hp⟩ ⟨_, hu⟩
    (fun k => read0 m c t a k ⟨_, hp⟩ rfl)
    (fun k => read1 m c t q k ⟨_, hu⟩ rfl) (read2 m c t q ⟨_, hu⟩ rfl)
    (fun k => read3 m c t q k ⟨_, hu⟩ rfl) (read4 m c t q ⟨_, hu⟩ rfl)
    (fun k => read5 m c t q k ⟨_, hu⟩ rfl) (read6 m c t q ⟨_, hu⟩ rfl)
    (fun k => read7 m c t q k ⟨_, hu⟩ rfl) (read8 m c t q ⟨_, hu⟩ rfl)

/-! ## The result arrays after the run -/

/-- The cell-state array ends holding `stateArr`. -/
theorem state_array (c : Dev nD) : (dats m 0 c).arrAt 10 cfg0.N = stateArr m c :=
  (dats m 0 c).arrAt_eq_of_cover 10 (stateArr m c) (fun t _ => state_block_written m c t) state_blocks_cover

/-- The hidden-state array ends holding `hiddenArr`. -/
theorem hidden_array (c : Dev nD) : (dats m 0 c).arrAt 9 cfg0.N = hiddenArr m c :=
  (dats m 0 c).arrAt_eq_of_cover 9 (hiddenArr m c) (fun t _ => hidden_block_written m c t) hidden_blocks_cover

end Cert.KernelIdeal.Tiles

end
-- ==== Proof.Entry.lean ====
/-
  What the kernel's region finds in its arrays.

  Before the region the program joins its first two arguments side by side and changes the join's and the four weight
  matrices' float format (the identity on the extended reals), and reshapes each bias [2048] to a row [1, 2048]
  (entry (0, q) of the row is entry q of the bias). So the region's input array is the join, its weight arrays are
  the weight arguments, and each bias row, read back as a [2048] array, is the bias argument.
-/
import proofs.«156758_j22119081574758_1_alg».proof.Proof.Gen.KernelIdeal.Frame
import proofs.«156758_j22119081574758_1_alg».proof.Proof.BodyCell
import Idealize.ShloMosaic.Lib.StableHlo.Run
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.CellSpec Cert.KernelIdeal.CellBody

variable (m : (ℓ : Loc nD τ sig) → Buf (Elt Ideal) ℓ)

/-- A [2048] array reshaped to a row [1, 2048] and read back entry by entry is the array. -/
theorem rowOf_reshape (v : FVec Ideal S2048 .f32) : rowOf (shapeCast S1x2048 v shapeCasts_S2048_S1x2048) = v := by
  funext d
  unfold rowOf
  rw [shapeCast_addUnit_apply ![2048] v shapeCasts_S2048_S1x2048 (ix2 (0 : Fin 1) (d 0))]
  refine congrArg v (funext fun ax => ?_)
  match ax with
  | ⟨0, _⟩ => rfl

/-- The region's input array is the join of the first two arguments. -/
theorem joined (c : Dev nD) : (V m c main_v1 : FVec Ideal SIn .f32)
    = concatenate S4096x4096 1 [⟨S4096x2048, m ((c : Thread nD τ).loc main_arg0)⟩, ⟨S4096x2048, m ((c : Thread nD τ).loc main_arg1)⟩] concatenates_S4096x2048_S4096x2048_S4096x4096_d1 := by
  dsimp only [Gen.V, Gen.hostOps0]
  after_results
  rfl

/-- The forget gate's weight array is its argument. -/
theorem weights_f (c : Dev nD) : (V m c main_v2 : FVec Ideal SW .f32) = m ((c : Thread nD τ).loc main_arg3) := by
  dsimp only [Gen.V, Gen.hostOps0]
  after_results
  rfl

/-- The forget gate's bias row, read back, is its argument. -/
theorem bias_f (c : Dev nD) : rowOf (V m c main_v6) = m ((c : Thread nD τ).loc main_arg4) := by
  have e : (V m c main_v6 : FVec Ideal S1x2048 .f32) = shapeCast S1x2048 (m ((c : Thread nD τ).loc main_arg4)) shapeCasts_S2048_S1x2048 := by
    dsimp only [Gen.V, Gen.hostOps0]
    after_results
    rfl
  rw [e, rowOf_reshape]

/-- The input gate's weight array is its argument. -/
theorem weights_i (c : Dev nD) : (V m c main_v3 : FVec Ideal SW .f32) = m ((c : Thread nD τ).loc main_arg5) := by
  dsimp only [Gen.V, Gen.hostOps0]
  after_results
  rfl

/-- The input gate's bias row, read back, is its argument. -/
theorem bias_i (c : Dev nD) : rowOf (V m c main_v7) = m ((c : Thread nD τ).loc main_arg6) := by
  have e : (V m c main_v7 : FVec Ideal S1x2048 .f32) = shapeCast S1x2048 (m ((c : Thread nD τ).loc main_arg6)) shapeCasts_S2048_S1x2048 := by
    dsimp only [Gen.V, Gen.hostOps0]
    after_results
    rfl
  rw [e, rowOf_reshape]

/-- The candidate's weight array is its argument. -/
theorem weights_c (c : Dev nD) : (V m c main_v4 : FVec Ideal SW .f32) = m ((c : Thread nD τ).loc main_arg7) := by
  dsimp only [Gen.V, Gen.hostOps0]
  after_results
  rfl

/-- The candidate's bias row, read back, is its argument. -/
theorem bias_c (c : Dev nD) : rowOf (V m c main_v8) = m ((c : Thread nD τ).loc main_arg8) := by
  have e : (V m c main_v8 : FVec Ideal S1x2048 .f32) = shapeCast S1x2048 (m ((c : Thread nD τ).loc main_arg8)) shapeCasts_S2048_S1x2048 := by
    dsimp only [Gen.V, Gen.hostOps0]
    after_results
    rfl
  rw [e, rowOf_reshape]

/-- The output gate's weight array is its argument. -/
theorem weights_o (c : Dev nD) : (V m c main_v5 : FVec Ideal SW .f32) = m ((c : Thread nD τ).loc main_arg9) := by
  dsimp only [Gen.V, Gen.hostOps0]
  after_results
  rfl

/-- The output gate's bias row, read back, is its argument. -/
theorem bias_o (c : Dev nD) : rowOf (V m c main_v9) = m ((c : Thread nD τ).loc main_arg10) := by
  have e : (V m c main_v9 : FVec Ideal S1x2048 .f32) = shapeCast S1x2048 (m ((c : Thread nD τ).loc main_arg10)) shapeCasts_S2048_S1x2048 := by
    dsimp only [Gen.V, Gen.hostOps0]
    after_results
    rfl
  rw [e, rowOf_reshape]

end Cert.KernelIdeal.Entry

end
-- ==== Proof.KernelRun.lean ====
/-
  The kernel's run, read: after it the first result array holds the hidden state and the second the cell state of
  `CellSpec`, over the join of the first two arguments and the eight parameter arguments; the arguments are unchanged.
  (Each result array is the cell of the arrays the region finds, `Tiles`; those arrays are the join and the
  arguments, `Entry`.)
-/
import proofs.«156758_j22119081574758_1_alg».proof.Proof.Tiles
import proofs.«156758_j22119081574758_1_alg».proof.Proof.Entry

noncomputable section

namespace Cert.KernelIdeal.CellRun

open Cert.KernelIdeal Cert.KernelIdeal.Gen Cert.KernelIdeal.Value Idealize.ShloMosaic Idealize.ShloMosaic.TcCoe Idealize.SL.Sem
open Cert.CellSpec Cert.KernelIdeal.CellBody Cert.KernelIdeal.Tiles Cert.KernelIdeal.Entry

variable (m : (ℓ : Loc nD τ sig) → Buf (Elt Ideal) ℓ) (ρ : Dev nD → PrngReg)

/-- The hidden state of the join and the parameter arguments. -/
abbrev hiddenOf (c : Dev nD) : FVec Ideal SOut .f32 :=
  hidden (concatenate S4096x4096 1 [⟨S4096x2048, m ((c : Thread nD τ).loc main_arg0)⟩, ⟨S4096x2048, m ((c : Thread nD τ).loc main_arg1)⟩] concatenates_S4096x2048_S4096x2048_S4096x4096_d1)
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10))

/-- The cell state of the join and the parameter arguments. -/
abbrev stateOf (c : Dev nD) : FVec Ideal SOut .f32 :=
  cellState (concatenate S4096x4096 1 [⟨S4096x2048, m ((c : Thread nD τ).loc main_arg0)⟩, ⟨S4096x2048, m ((c : Thread nD τ).loc main_arg1)⟩] concatenates_S4096x2048_S4096x2048_S4096x4096_d1)
    (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The arrays the region finds are the join and the arguments, so its cell state is `stateOf`. -/
theorem stateArr_eq (c : Dev nD) : stateArr m c = stateOf m c := by
  unfold stateArr stateOf
  rw [joined, weights_f, bias_f, weights_i, bias_i, weights_c, bias_c]

/-- and its hidden state is `hiddenOf`. -/
theorem hiddenArr_eq (c : Dev nD) : hiddenArr m c = hiddenOf m c := by
  unfold hiddenArr hiddenOf
  rw [joined, weights_f, bias_f, weights_i, bias_i, weights_c, bias_c, weights_o, bias_o]

/-- The run: the result arrays at the hidden state and the cell state, the arguments unchanged. -/
theorem run : θ_run defs (onTc (τ := τ) (main (F := Ideal))) ⟨m, fun _ => 0, ρ⟩ fun r => ∀ c : Dev nD,
      r.2.mem ((c : Thread nD τ).loc main_v10_0) = hiddenOf m c
      ∧ r.2.mem ((c : Thread nD τ).loc main_v10_1) = stateOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans ((hidden_array m c).trans (hiddenArr_eq m c)),
      (h c).2.1.trans ((state_array m c).trans (stateArr_eq m c)), (h c).2.2⟩)
    (Value.run_blocks m ρ)

end Cert.KernelIdeal.CellRun

end
-- ==== Proof.lean ====
/-
  One LSTM cell step, the tiled kernel against the plain reference, over the extended reals.

  Both programs compute, at batch row p and unit q, the four gate pre-activations (row p of the joined input against
  row q of a gate's weights, plus the unit's bias), the new cell state (logistic f + logistic i) · tanh c and the new
  hidden state logistic o · tanh of the cell state. The kernel does it tile by tile with a matrix product into a zero
  accumulator and the logistic operation; the reference with a contraction against the transposed weights and the
  logistic function spelt as 1 / (1 + e^(-x)). On the extended reals the two products are the same sum term by term,
  a change of float format is the identity, and the quotient is the logistic function by definition, so no finiteness
  of the inputs is needed: the two results are equal as functions of the arguments.

  `CellSpec` states the cell; `RefCell` reads the reference's two results as the cell; `BodyCell`, `Tiles`,
  `Entry` and `KernelRun` read the kernel's two result arrays as the cell; here the claims are assembled. The
  idealization rewrote nothing, so that conjunct is trivial.
-/
import proofs.«156758_j22119081574758_1_alg».proof.Defs
import proofs.«156758_j22119081574758_1_alg».proof.Proof.Gen.Kernel
import proofs.«156758_j22119081574758_1_alg».proof.Proof.Gen.Kernel.Skeleton
import proofs.«156758_j22119081574758_1_alg».proof.Proof.Gen.Kernel.Launch
import proofs.«156758_j22119081574758_1_alg».proof.Proof.Gen.Kernel.Points
import proofs.«156758_j22119081574758_1_alg».proof.Proof.Gen.Kernel.Frame
import proofs.«156758_j22119081574758_1_alg».proof.Proof.Gen.KernelIdeal
import proofs.«156758_j22119081574758_1_alg».proof.Proof.Gen.KernelIdeal.Skeleton
import proofs.«156758_j22119081574758_1_alg».proof.Proof.Gen.KernelIdeal.Launch
import proofs.«156758_j22119081574758_1_alg».proof.Proof.Gen.KernelIdeal.Points
import proofs.«156758_j22119081574758_1_alg».proof.Proof.Gen.KernelIdeal.Frame
import proofs.«156758_j22119081574758_1_alg».proof.Proof.Gen.ReferenceIdeal
import proofs.«156758_j22119081574758_1_alg».proof.Proof.Gen.Pre_finite_inputs
import proofs.«156758_j22119081574758_1_alg».proof.Proof.Gen.KernelIdeal.Value
import proofs.«156758_j22119081574758_1_alg».proof.Proof.Gen.ReferenceIdeal.Run
import proofs.«156758_j22119081574758_1_alg».proof.Proof.Gen.ReferenceIdeal.Read
import proofs.«156758_j22119081574758_1_alg».proof.Proof.RefCell
import proofs.«156758_j22119081574758_1_alg».proof.Proof.KernelRun
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From arguments that agree, the kernel's two result arrays and the reference's two results are the hidden state
    and the cell state of one LSTM cell step: the same two functions of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.CellRun.hiddenOf m c, fun c => Cert.KernelIdeal.CellRun.stateOf m c,
    Cert.KernelIdeal.CellRun.run m ρ, ?_⟩
  refine (θ_run Cert.ReferenceIdeal.defs _ _).mono (fun _ h c => ?_) (Cert.ReferenceIdeal.Value.run (F := Ideal) m' ρ')
  obtain ⟨hh, hs, hkept⟩ := h c
  obtain ⟨a0, a1, a2, a3, a4, a5, a6, a7, a8, a9, a10⟩ := hagree c
  refine ⟨hh.trans ?_, hs.trans ?_, hkept⟩
  · rw [Cert.ReferenceIdeal.Read.val_main_v43_eq, Cert.ReferenceIdeal.CellRead.hidden_eq, a0, a1, a3, a4, a5, a6, a7, a8, a9, a10]
    rfl
  · rw [Cert.ReferenceIdeal.Read.val_main_v41_eq, Cert.ReferenceIdeal.CellRead.state_eq, a0, a1, a3, a4, a5, a6, a7, a8]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
